-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4000x4 : Shape := ⟨3, ![4096, 4000, 4]⟩
abbrev S_ : Shape := ⟨0, ![]⟩

class Facts : Prop where
  bcast_S_S4096x4000x4 : S_.BroadcastsInDim S4096x4000x4 (![] : Fin 0 → Fin S4096x4000x4.rank)
  reducesTo_S4096x4000x4_S_d0_1_2 : S4096x4000x4.ReducesTo [0, 1, 2] S_
  h_S_ : 0 < S_.numel

variable [Facts]

def fn {F : FTy → Type} [FloatOps F] (main_arg0 : FVec F S4096x4000x4 .f32) (main_arg1 : FVec F S4096x4000x4 .f32) : IVec S_ 1 :=
  let main_v0 : FVec F S4096x4000x4 .f32 := Host.absf main_arg0
  let main_cst : FVec F S_ .f32 := constant S_ .f32 0x7F800000#32
  let main_v1 : FVec F S4096x4000x4 .f32 := broadcastInDim S4096x4000x4 ![] bcast_S_S4096x4000x4 main_cst
  let main_v2 : IVec S4096x4000x4 1 := cmpf .olt main_v0 main_v1
  let main_c : IVec S_ 1 := constantI S_ 1 1#1
  let main_v3 : IVec S_ 1 := (fun x v => Host.reduce IntOp.andi x v reducesTo_S4096x4000x4_S_d0_1_2 h_S_) main_v2 main_c
  let main_v4 : FVec F S4096x4000x4 .f32 := Host.absf main_arg1
  let main_cst_0 : FVec F S_ .f32 := constant S_ .f32 0x7F800000#32
  let main_v5 : FVec F S4096x4000x4 .f32 := broadcastInDim S4096x4000x4 ![] bcast_S_S4096x4000x4 main_cst_0
  let main_v6 : IVec S4096x4000x4 1 := cmpf .olt main_v4 main_v5
  let main_c_1 : IVec S_ 1 := constantI S_ 1 1#1
  let main_v7 : IVec S_ 1 := (fun x v => Host.reduce IntOp.andi x v reducesTo_S4096x4000x4_S_d0_1_2 h_S_) main_v6 main_c_1
  let main_v8 : IVec S_ 1 := andi main_v3 main_v7
  main_v8
-- ==== Kernel.lean ====
abbrev S4096x4000x4 : Shape := ⟨3, ![4096, 4000, 4]⟩
abbrev S4000x4 : Shape := ⟨2, ![4000, 4]⟩
abbrev S512x400x4 : Shape := ⟨3, ![512, 400, 4]⟩
abbrev S400x4 : Shape := ⟨2, ![400, 4]⟩
abbrev S_ : Shape := ⟨0, ![]⟩
abbrev S4 : Shape := ⟨1, ![4]⟩

abbrev nBuf : Space → Nat
  | .hbm => 26
  | .vmem => 8
  | .smem => 0
  | _ => 0

abbrev bufTy : (tb : Table) → Fin (tcTables nBuf tb) → BufTy
  | .hbm, ⟨0, _⟩ => ⟨S4096x4000x4, .f32⟩
  | .hbm, ⟨1, _⟩ => ⟨S4096x4000x4, .f32⟩
  | .hbm, ⟨2, _⟩ => ⟨S4000x4, .f32⟩
  | .hbm, ⟨3, _⟩ => ⟨S4000x4, .f32⟩
  | .hbm, ⟨4, _⟩ => ⟨S_, .f32⟩
  | .hbm, ⟨5, _⟩ => ⟨S4000x4, .f32⟩
  | .hbm, ⟨6, _⟩ => ⟨S4000x4, .i1⟩
  | .hbm, ⟨7, _⟩ => ⟨S_, .f32⟩
  | .hbm, ⟨8, _⟩ => ⟨S4000x4, .f32⟩
  | .hbm, ⟨9, _⟩ => ⟨S4000x4, .f32⟩
  | .hbm, ⟨10, _⟩ => ⟨S4000x4, .f32⟩
  | .hbm, ⟨11, _⟩ => ⟨S_, .f32⟩
  | .hbm, ⟨12, _⟩ => ⟨S_, .f32⟩
  | .hbm, ⟨13, _⟩ => ⟨S4000x4, .f32⟩
  | .hbm, ⟨14, _⟩ => ⟨S4000x4, .f32⟩
  | .hbm, ⟨15, _⟩ => ⟨S4000x4, .f32⟩
  | .hbm, ⟨16, _⟩ => ⟨S4000x4, .f32⟩
  | .hbm, ⟨17, _⟩ => ⟨S_, .f32⟩
  | .hbm, ⟨18, _⟩ => ⟨S4, .f32⟩
  | .hbm, ⟨19, _⟩ => ⟨S_, .f32⟩
  | .hbm, ⟨20, _⟩ => ⟨S4, .f32⟩
  | .hbm, ⟨21, _⟩ => ⟨S4, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S512x400x4, .f32⟩
  | .local _ .vmem, ⟨1, _⟩ => ⟨S512x400x4, .f32⟩
  | .local _ .vmem, ⟨2, _⟩ => ⟨S512x400x4, .f32⟩
  | .local _ .vmem, ⟨3, _⟩ => ⟨S512x400x4, .f32⟩
  | .local _ .vmem, ⟨4, _⟩ => ⟨S400x4, .f32⟩
  | .local _ .vmem, ⟨5, _⟩ => ⟨S400x4, .f32⟩
  | .local _ .vmem, ⟨6, _⟩ => ⟨S400x4, .f32⟩
  | .local _ .vmem, ⟨7, _⟩ => ⟨S400x4, .f32⟩
  | _, _ => ⟨S4096x4000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_cst_5 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![10, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x400x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x400x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S400x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S400x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S400x4_S400x4_0_0 : ∀ a, (![0, 0] : Fin 2 → Nat) a + S400x4.size a ≤ S400x4.size a
  h_S400x4 : 0 < S400x4.numel
  inb_S512x400x4_S512x400x4_0_0_0 : ∀ a, (![0, 0, 0] : Fin 3 → Nat) a + S512x400x4.size a ≤ S512x400x4.size a
  h_S512x400x4 : 0 < S512x400x4.numel
  natLt_1_32 : 1 < 32
  shapeCasts_S400x4_S400x4 : S400x4.ShapeCasts S400x4
  reduces_S512x400x4_S400x4 : S512x400x4.Reduces [0] S400x4
  bcast_S_S4000x4 : S_.BroadcastsInDim S4000x4 (![] : Fin 0 → Fin S4000x4.rank)
  reducesTo_S4000x4_S4_d0 : S4000x4.ReducesTo [0] S4
  h_S_ : 0 < S_.numel
  reducesTo_S4_S_d0 : S4.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x400x4.size a ≤ S4096x4000x4.size a
  hwx0_0 : ∀ i : grid0.Coords, EltTy.bits .f32 = 32 ∨ (Rect.block (s := S4096x4000x4) S512x400x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x400x4.size a ≤ S4096x4000x4.size a
  hwx0_1 : ∀ i : grid0.Coords, EltTy.bits .f32 = 32 ∨ (Rect.block (s := S4096x4000x4) S512x400x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x4.size a ≤ S4000x4.size a
  hwx0_2 : ∀ i : grid0.Coords, EltTy.bits .f32 = 32 ∨ (Rect.block (s := S4000x4) S400x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x4.size a ≤ S4000x4.size a
  hwx0_3 : ∀ i : grid0.Coords, EltTy.bits .f32 = 32 ∨ (Rect.block (s := S4000x4) S400x4.size (cc0_transform_3 i) (hinb0_3 i)).WholeWords (EltTy.packing .f32)

variable [Facts₀]

abbrev win0_0 : Pipeline.Window sig grid0 :=
  Pipeline.Window.ofSpec (Memref.whole main_arg0) S512x400x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x400x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S400x4.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S400x4.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4000x4 : Shape := ⟨3, ![4096, 4000, 4]⟩
abbrev S_ : Shape := ⟨0, ![]⟩
abbrev S4000x4 : Shape := ⟨2, ![4000, 4]⟩
abbrev S4 : Shape := ⟨1, ![4]⟩

abbrev nBuf : Space → Nat
  | .hbm => 38
  | .vmem => 0
  | .smem => 0
  | _ => 0

abbrev bufTy : (tb : Table) → Fin (tcTables nBuf tb) → BufTy
  | .hbm, ⟨0, _⟩ => ⟨S4096x4000x4, .f32⟩
  | .hbm, ⟨1, _⟩ => ⟨S4096x4000x4, .f32⟩
  | .hbm, ⟨2, _⟩ => ⟨S4096x4000x4, .i1⟩
  | .hbm, ⟨3, _⟩ => ⟨S4096x4000x4, .i1⟩
  | .hbm, ⟨4, _⟩ => ⟨S4096x4000x4, .f32⟩
  | .hbm, ⟨5, _⟩ => ⟨S_, .f32⟩
  | .hbm, ⟨6, _⟩ => ⟨S_, .f32⟩
  | .hbm, ⟨7, _⟩ => ⟨S4096x4000x4, .f32⟩
  | .hbm, ⟨8, _⟩ => ⟨S4096x4000x4, .f32⟩
  | .hbm, ⟨9, _⟩ => ⟨S4096x4000x4, .f32⟩
  | .hbm, ⟨10, _⟩ => ⟨S4096x4000x4, .f32⟩
  | .hbm, ⟨11, _⟩ => ⟨S4096x4000x4, .f32⟩
  | .hbm, ⟨12, _⟩ => ⟨S_, .f32⟩
  | .hbm, ⟨13, _⟩ => ⟨S4000x4, .f32⟩
  | .hbm, ⟨14, _⟩ => ⟨S_, .f32⟩
  | .hbm, ⟨15, _⟩ => ⟨S4000x4, .f32⟩
  | .hbm, ⟨16, _⟩ => ⟨S_, .f32⟩
  | .hbm, ⟨17, _⟩ => ⟨S4000x4, .f32⟩
  | .hbm, ⟨18, _⟩ => ⟨S4000x4, .i1⟩
  | .hbm, ⟨19, _⟩ => ⟨S_, .f32⟩
  | .hbm, ⟨20, _⟩ => ⟨S4000x4, .f32⟩
  | .hbm, ⟨21, _⟩ => ⟨S4000x4, .f32⟩
  | .hbm, ⟨22, _⟩ => ⟨S4000x4, .f32⟩
  | .hbm, ⟨23, _⟩ => ⟨S_, .f32⟩
  | .hbm, ⟨24, _⟩ => ⟨S_, .f32⟩
  | .hbm, ⟨25, _⟩ => ⟨S4000x4, .f32⟩
  | .hbm, ⟨26, _⟩ => ⟨S4000x4, .f32⟩
  | .hbm, ⟨27, _⟩ => ⟨S4000x4, .f32⟩
  | .hbm, ⟨28, _⟩ => ⟨S4000x4, .f32⟩
  | .hbm, ⟨29, _⟩ => ⟨S_, .f32⟩
  | .hbm, ⟨30, _⟩ => ⟨S4, .f32⟩
  | .hbm, ⟨31, _⟩ => ⟨S_, .f32⟩
  | .hbm, ⟨32, _⟩ => ⟨S4, .f32⟩
  | .hbm, ⟨33, _⟩ => ⟨S4, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S4096x4000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_call0_v0 : Ref sig .tc := ⟨.hbm, 6, rfl⟩
abbrev main_call0_v1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_call1_v0 : Ref sig .tc := ⟨.hbm, 24, rfl⟩
abbrev main_call1_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_cst_6 : Ref sig .tc := ⟨.hbm, 31, rfl⟩
abbrev main_v18 : Ref sig .tc := ⟨.hbm, 32, rfl⟩
abbrev main_v19 : Ref sig .tc := ⟨.hbm, 33, rfl⟩
abbrev main_cst_7 : Ref sig .tc := ⟨.hbm, 34, rfl⟩
abbrev main_v20 : Ref sig .tc := ⟨.hbm, 35, rfl⟩
abbrev main_cst_8 : Ref sig .tc := ⟨.hbm, 36, rfl⟩
abbrev main_v21 : Ref sig .tc := ⟨.hbm, 37, rfl⟩

abbrev nD : Nat := 1
abbrev τ : Topo := Topo.v7x

variable {F : FTy → Type} [FloatOps F]

class Facts₀ : Prop where
  bcast_S_S4096x4000x4 : S_.BroadcastsInDim S4096x4000x4 (![] : Fin 0 → Fin S4096x4000x4.rank)
  reducesTo_S4096x4000x4_S4000x4_d0 : S4096x4000x4.ReducesTo [0] S4000x4
  h_S_ : 0 < S_.numel
  bcast_S_S4000x4 : S_.BroadcastsInDim S4000x4 (![] : Fin 0 → Fin S4000x4.rank)
  reducesTo_S4000x4_S4_d0 : S4000x4.ReducesTo [0] S4
  reducesTo_S4_S_d0 : S4.ReducesTo [0] S_

variable [Facts₀]

class Facts : Prop extends Facts₀ where

variable [Facts]
-- ==== Proof.BodyValues.lean ====
/-
  What one run of the kernel body leaves in its two output blocks, as values.

  The body has two shapes. On the first step along the reduction axis it stores a block of zeros into each output, reads it
  back, and stores "what it read + this step's column sums". On every later step it reads what the step before left and stores
  "that + this step's column sums". Each output block is covered by its last store, so what the block holds afterwards is that
  store's value: the count payload of the target block over the carried counts, and the squared-error payload of the two
  input blocks over the carried sums, the carried block being the zero block on a first step. Stated for any float type.
-/
import proofs.«128352_j7301444403961_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.BodyValues

open Cert.KernelIdeal Cert.KernelIdeal.Gen

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- A later step leaves, in the count block, the carried counts plus this step's count of valid targets. -/
theorem count_later (c : Dev nD) (i : grid0.Coords) (arg2 : Memref sig .tc .vmem S512x400x4 .f32) (harg2 : arg2.IsWhole) (arg3 : Memref sig .tc .vmem S512x400x4 .f32) (harg3 : arg3.IsWhole) (arg4 : Memref sig .tc .vmem S400x4 .f32) (harg4 : arg4.IsWhole) (arg5 : Memref sig .tc .vmem S400x4 .f32) (harg5 : arg5.IsWhole) (hc0 : ¬cond0_0 i)
    (x0 x1 : Vec F S512x400x4 .f32) (xo2 xo3 : Vec F S400x4 .f32) :
    out0_B_2 c i arg2 harg2 arg3 harg3 arg4 harg4 arg5 harg5 hc0 x0 x1 xo2 xo3 = k0_pay5 x1 xo2 := by
  unfold out0_B_2
  rw [View.read_writes_eq_canon _ _ _ (cover0_B_2 c i arg2 harg2 arg3 harg3 arg4 harg4 arg5 harg5 hc0 x0 x1 xo2 xo3)]
  unfold kernelRun0_B
  dsimp only
  sl_unfold_words
  rw [View.canon_unit_zero zero2]
  simp only [View.readAt_eq_ld, harg2.read_unread, harg3.read_unread, harg4.read_unread, harg5.read_unread,
    View.ld_unit_zero (S := S400x4) zero2, View.ld_unit_zero (S := S512x400x4) zero3]

/-- A later step leaves, in the squared-error block, the carried sums plus this step's sums of squared errors. -/
theorem sqerr_later (c : Dev nD) (i : grid0.Coords) (arg2 : Memref sig .tc .vmem S512x400x4 .f32) (harg2 : arg2.IsWhole) (arg3 : Memref sig .tc .vmem S512x400x4 .f32) (harg3 : arg3.IsWhole) (arg4 : Memref sig .tc .vmem S400x4 .f32) (harg4 : arg4.IsWhole) (arg5 : Memref sig .tc .vmem S400x4 .f32) (harg5 : arg5.IsWhole) (hc0 : ¬cond0_0 i)
    (x0 x1 : Vec F S512x400x4 .f32) (xo2 xo3 : Vec F S400x4 .f32) :
    out0_B_3 c i arg2 harg2 arg3 harg3 arg4 harg4 arg5 harg5 hc0 x0 x1 xo2 xo3 = k0_pay6 x0 x1 xo3 := by
  unfold out0_B_3
  rw [View.read_writes_eq_canon _ _ _ (cover0_B_3 c i arg2 harg2 arg3 harg3 arg4 harg4 arg5 harg5 hc0 x0 x1 xo2 xo3)]
  unfold kernelRun0_B
  dsimp only
  sl_unfold_words
  rw [View.canon_unit_zero zero2]
  simp only [View.readAt_eq_ld, harg2.read_unread, harg3.read_unread, harg4.read_unread, harg5.read_unread,
    View.ld_unit_zero (S := S400x4) zero2, View.ld_unit_zero (S := S512x400x4) zero3]

/-- A first step leaves, in the count block, this step's count over the zero block it has just stored. -/
theorem count_first (c : Dev nD) (i : grid0.Coords) (arg2 : Memref sig .tc .vmem S512x400x4 .f32) (harg2 : arg2.IsWhole) (arg3 : Memref sig .tc .vmem S512x400x4 .f32) (harg3 : arg3.IsWhole) (arg4 : Memref sig .tc .vmem S400x4 .f32) (harg4 : arg4.IsWhole) (arg5 : Memref sig .tc .vmem S400x4 .f32) (harg5 : arg5.IsWhole) (hc0 : cond0_0 i)
    (x0 x1 : Vec F S512x400x4 .f32) :
    out0_A_2 c i arg2 harg2 arg3 harg3 arg4 harg4 arg5 harg5 hc0 x0 x1 = k0_pay5 x1 (k0_pay1 (F := F)) := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_cons_unit_zero (S := S400x4) zero2, View.readCov_unit_zero (S := S400x4) _ zero2]
  simp only [View.readAt_eq_ld, harg2.read_unread, harg3.read_unread, harg4.read_unread, harg5.read_unread,
    View.ld_unit_zero (S := S400x4) zero2, View.ld_unit_zero (S := S512x400x4) zero3]

/-- A first step leaves, in the squared-error block, this step's sums over the zero block it has just stored. -/
theorem sqerr_first (c : Dev nD) (i : grid0.Coords) (arg2 : Memref sig .tc .vmem S512x400x4 .f32) (harg2 : arg2.IsWhole) (arg3 : Memref sig .tc .vmem S512x400x4 .f32) (harg3 : arg3.IsWhole) (arg4 : Memref sig .tc .vmem S400x4 .f32) (harg4 : arg4.IsWhole) (arg5 : Memref sig .tc .vmem S400x4 .f32) (harg5 : arg5.IsWhole) (hc0 : cond0_0 i)
    (x0 x1 : Vec F S512x400x4 .f32) :
    out0_A_3 c i arg2 harg2 arg3 harg3 arg4 harg4 arg5 harg5 hc0 x0 x1 = k0_pay6 x0 x1 (k0_pay2 (F := F)) := by
  unfold out0_A_3
  rw [View.read_writes_eq_canon _ _ _ (cover0_A_3 c i arg2 harg2 arg3 harg3 arg4 harg4 arg5 harg5 hc0 x0 x1)]
  unfold kernelRun0_A
  dsimp only
  sl_unfold_words
  rw [View.canon_cons_unit_zero (S := S400x4) zero2, View.readCov_unit_zero (S := S400x4) _ zero2]
  simp only [View.readAt_eq_ld, harg2.read_unread, harg3.read_unread, harg4.read_unread, harg5.read_unread,
    View.ld_unit_zero (S := S400x4) zero2, View.ld_unit_zero (S := S512x400x4) zero3]

end Cert.KernelIdeal.BodyValues

end
-- ==== Proof.ElementTerms.lean ====
/-
  One observation's contribution to the two column sums, over the extended reals.

  Both programs mask out targets that are not numbers: the kernel by asking whether the target equals itself, the reference
  by asking whether it differs from itself and negating. An extended real always equals itself, so over the extended reals
  every target is valid: its weight in the count is 1, the "safe" target is the target, and its squared error is
  `((o − t)·1)·((o − t)·1) = (o − t)·(o − t)`. The kernel turns the mask bit into a float by widening it to 32 bits and
  converting it as a signed integer, the reference converts the one bit as an unsigned integer: both give 1 for a set bit.
-/
import Idealize.ShloMosaic.PureOps.Ideal.Laws
import Idealize.ShloMosaic.Lib.ValueIdx

noncomputable section

open Idealize.ShloMosaic

namespace Cert.ElementTerms

/-- The squared error of one observation against its target. -/
def sqErr (o t : EReal) : EReal := (o - t) * (o - t)

/-- A target compares equal to itself: the kernel's mask bit is set. -/
theorem self_eq_bit (t : Ideal .f32) : FloatOps.cmpf (F := Ideal) .oeq t t = 1#1 := by
  simp [Ideal.cmpf_def, Ideal.cmp]

/-- A target does not differ from itself: the reference's negated bit is set. -/
theorem self_ne_bit (t : Ideal .f32) : ~~~(FloatOps.cmpf (F := Ideal) .une t t) = 1#1 := by
  simp [Ideal.cmpf_def, Ideal.cmp]

/-- A set bit, widened to 32 bits and read as a signed integer, is the float 1. -/
theorem weight_of_set_bit : FloatOps.sitofp (F := Ideal) .f32 ((1#1 : BitVec 1).setWidth 32) = (1 : EReal) := by
  show (((((1#1 : BitVec 1).setWidth 32).toInt : ℤ) : ℝ) : EReal) = 1
  norm_num

/-- A set bit read as an unsigned integer is the float 1. -/
theorem host_weight_of_set_bit : FloatOps.uitofp (F := Ideal) .f32 (1#1 : BitVec 1) = (1 : EReal) := by
  show ((((1#1 : BitVec 1).toNat : ℕ) : ℝ) : EReal) = 1
  norm_num

/-- The kernel's spelling of one observation's squared error. -/
theorem kernel_sqErr (o t : Ideal .f32) :
    (o - Scalar.select (FloatOps.cmpf (F := Ideal) .oeq t t) t (FloatOps.ofBits (F := Ideal) .f32 0#32))
        * FloatOps.sitofp (F := Ideal) .f32 ((FloatOps.cmpf (F := Ideal) .oeq t t).setWidth 32)
      * ((o - Scalar.select (FloatOps.cmpf (F := Ideal) .oeq t t) t (FloatOps.ofBits (F := Ideal) .f32 0#32))
        * FloatOps.sitofp (F := Ideal) .f32 ((FloatOps.cmpf (F := Ideal) .oeq t t).setWidth 32)) = sqErr o t := by
  rw [self_eq_bit, ValueIdx.select_one, weight_of_set_bit, mul_one]
  rfl

/-- The reference's spelling of it. -/
theorem host_sqErr (o t z : Ideal .f32) :
    (o - Scalar.select (~~~(FloatOps.cmpf (F := Ideal) .une t t)) t z)
        * FloatOps.uitofp (F := Ideal) .f32 (~~~(FloatOps.cmpf (F := Ideal) .une t t))
      * ((o - Scalar.select (~~~(FloatOps.cmpf (F := Ideal) .une t t)) t z)
        * FloatOps.uitofp (F := Ideal) .f32 (~~~(FloatOps.cmpf (F := Ideal) .une t t))) = sqErr o t := by
  rw [self_ne_bit, ValueIdx.select_one, host_weight_of_set_bit, mul_one]
  rfl

end Cert.ElementTerms

end
-- ==== Proof.PayloadValues.lean ====
/-
  The body's two stored values, read at one entry of the output block, over the extended reals.

  Entry (p, q) of the count block is what the block held there plus the number of rows of this step's target block, each
  row counting 1 (every target is valid over the extended reals); entry (p, q) of the squared-error block is what it held
  there plus the sum, over the 512 rows of this step's blocks, of the squared error at (row, p, q). The lane reduction over
  the leading axis of a [512, 400, 4] block at (p, q) is the sum over the row of the block's entry at (row, p, q).
-/
import proofs.«128352_j7301444403961_1_alg».proof.Proof.Gen.KernelIdeal.Skeleton
import proofs.«128352_j7301444403961_1_alg».proof.Proof.ElementTerms
import Idealize.ShloMosaic.Lib.ValueIdx
import Idealize.ShloMosaic.Lib.Pipeline.Value
import Idealize.ShloMosaic.PureOps.Ideal.Laws

noncomputable section

open Idealize.ShloMosaic Idealize.ShloMosaic.ValueIdx
open scoped BigOperators

namespace Cert.KernelIdeal.PayloadValues

open Cert.KernelIdeal Cert.KernelIdeal.Gen Cert.ElementTerms

/-- Summing a [512, 400, 4] block over its leading axis: entry (p, q) of the result is the sum over the rows. -/
theorem rows_sum (src : FVec Ideal S512x400x4 .f32) (h : S512x400x4.Reduces [0] S400x4) (hφ : FKind.Formats .f32)
    (hacc : (0x00000000#32 : BitVec 32) = 0x00000000#32) (p : Fin 400) (q : Fin 4) :
    multiReduction .add [0] S400x4 src 0x00000000#32 h hφ hacc (ix2 p q) = ∑ r : Fin 512, src (ix3 r p q) := by
  refine (Ideal.multiReduction_add_single src 0x00000000#32 h hφ hacc (ix2 p q)).trans ?_
  refine Finset.sum_congr rfl fun r _ => congrArg src ?_
  funext a; apply Fin.ext
  match a with
  | ⟨0, _⟩ => rfl
  | ⟨1, _⟩ => rfl
  | ⟨2, _⟩ => rfl

/-- The count's stored value at (p, q): the carried count plus one for each of the 512 rows. -/
theorem count_payload_at (v4 : FVec Ideal S512x400x4 .f32) (v13 : FVec Ideal S400x4 .f32) (p : Fin 400) (q : Fin 4) :
    k0_pay5 (F := Ideal) v4 v13 (ix2 p q) = v13 (ix2 p q) + ∑ r : Fin 512, (1 : EReal) := by
  unfold k0_pay5
  refine (congrArg₂ (· + ·) (congrFun (shapeCast_self v13 _) (ix2 p q)) (rows_sum _ _ _ _ p q)).trans ?_
  refine congrArg (_ + ·) (Finset.sum_congr rfl fun r _ => ?_)
  show FloatOps.sitofp (F := Ideal) .f32 ((FloatOps.cmpf (F := Ideal) .oeq (v4 (ix3 r p q)) (v4 (ix3 r p q))).setWidth 32) = 1
  rw [self_eq_bit]
  exact weight_of_set_bit

/-- The squared-error sum's stored value at (p, q): the carried sum plus the rows' squared errors. -/
theorem sqerr_payload_at (v3 v4 : FVec Ideal S512x400x4 .f32) (v18 : FVec Ideal S400x4 .f32) (p : Fin 400) (q : Fin 4) :
    k0_pay6 (F := Ideal) v3 v4 v18 (ix2 p q) = v18 (ix2 p q) + ∑ r : Fin 512, sqErr (v3 (ix3 r p q)) (v4 (ix3 r p q)) := by
  unfold k0_pay6
  refine (congrArg₂ (· + ·) (congrFun (shapeCast_self v18 _) (ix2 p q)) (rows_sum _ _ _ _ p q)).trans ?_
  refine congrArg (_ + ·) (Finset.sum_congr rfl fun r _ => ?_)
  exact kernel_sqErr (v3 (ix3 r p q)) (v4 (ix3 r p q))

/-- The zero block a first step stores reads 0 everywhere. -/
theorem count_zero_at (j : S400x4.Idx) : k0_pay1 (F := Ideal) j = 0 := Ideal.ofBits_zero_f32
theorem sqerr_zero_at (j : S400x4.Idx) : k0_pay2 (F := Ideal) j = 0 := Ideal.ofBits_zero_f32

end Cert.KernelIdeal.PayloadValues

end
-- ==== Proof.LibRunSums.lean ====
/-
  A column of `L·n` terms summed in `n` consecutive runs of `L`.

  An accumulating kernel never sees a whole column: at each step of its reduction axis it adds the sum of the next `L` terms
  to what it already holds. In a commutative monoid that running total is the sum of an initial segment of the column, so
  after the last run it is the whole column's sum. Nothing here needs the terms to be finite: only commutativity and
  associativity of the addition are used, and the extended reals have both.
-/
import Idealize.ShloMosaic.PureOps.Ideal.Laws

open scoped BigOperators

namespace Cert.RunSums

variable {M : Type*} [AddCommMonoid M]

/-- The first `L·b` terms plus the next run of `L` are the first `L·(b+1)` terms. -/
theorem add_next_run (L : ℕ) (g : ℕ → M) (b : ℕ) :
    ∑ k ∈ Finset.range (L * b), g k + ∑ r : Fin L, g (L * b + r.val)
      = ∑ k ∈ Finset.range (L * (b + 1)), g k := by
  rw [Nat.mul_succ, Finset.sum_range_add, Finset.sum_range (fun x => g (L * b + x))]

/-- The first run by itself is the first `L` terms. -/
theorem first_run (L : ℕ) (g : ℕ → M) :
    ∑ r : Fin L, g (L * 0 + r.val) = ∑ k ∈ Finset.range (L * (0 + 1)), g k := by
  rw [Nat.zero_add, Nat.mul_one, Finset.sum_range]
  exact Finset.sum_congr rfl fun r _ => by rw [Nat.mul_zero, Nat.zero_add]

/-- The first `N` terms, listed by position, are the sum over the `N` positions. -/
theorem whole_column (N : ℕ) (g : ℕ → M) : ∑ k ∈ Finset.range N, g k = ∑ k : Fin N, g k.val :=
  Finset.sum_range g

end Cert.RunSums
-- ==== Proof.RunningSums.lean ====
/-
  What the two output blocks hold after each grid point: initial segments of the column sums.

  The grid is 10 station blocks by 8 time blocks, walked with the time block innermost, so point n works on station block
  n / 8 and time block n % 8. The input blocks at that point are rows 512·(n % 8) … 512·(n % 8) + 511 and stations
  400·(n / 8) … 400·(n / 8) + 399 of the two arrays. After point n, entry (p, q) of the count block is the number of times
  k < 512·(n % 8 + 1), and entry (p, q) of the squared-error block is the sum over those k of the squared error at
  (k, 400·(n / 8) + p, q): on a first time block the body starts from zero and adds the first 512 terms, on a later one it
  adds the next 512 terms to what the point before left. By induction on the point.
-/
import proofs.«128352_j7301444403961_1_alg».proof.Proof.Gen.KernelIdeal.Frame
import proofs.«128352_j7301444403961_1_alg».proof.Proof.BodyValues
import proofs.«128352_j7301444403961_1_alg».proof.Proof.PayloadValues
import proofs.«128352_j7301444403961_1_alg».proof.Proof.LibRunSums
import Idealize.ShloMosaic.Lib.Pipeline.Value

noncomputable section

open Idealize.ShloMosaic Idealize.ShloMosaic.TcCoe Idealize.SL.Sem Idealize.ShloMosaic.ValueIdx
open scoped BigOperators

namespace Cert.KernelIdeal.RunningSums

open Cert.KernelIdeal Cert.KernelIdeal.Gen Cert.ElementTerms Cert.KernelIdeal.BodyValues Cert.KernelIdeal.PayloadValues

variable (m : (ℓ : Loc nD τ sig) → Buf (Elt Ideal) ℓ)

/-- An entry of a [4096, 4000, 4] array by numeric coordinates (0 outside the array, which no sum below visits). -/
def entry (x : FVec Ideal S4096x4000x4 .f32) (k s y : ℕ) : EReal :=
  if h : k < 4096 ∧ s < 4000 ∧ y < 4 then x (ix3 ⟨k, h.1⟩ ⟨s, h.2.1⟩ ⟨y, h.2.2⟩) else 0

/-- The two input arrays as the region finds them, and their blocks at a point, at their literal types. -/
abbrev outArr (c : Dev nD) : FVec Ideal S4096x4000x4 .f32 := V m c main_arg0
abbrev tgtArr (c : Dev nD) : FVec Ideal S4096x4000x4 .f32 := V m c main_arg1
abbrev outBlk (c : Dev nD) (t : Fin cfg0.N) : FVec Ideal S512x400x4 .f32 := iblk m c 0 t
abbrev tgtBlk (c : Dev nD) (t : Fin cfg0.N) : FVec Ideal S512x400x4 .f32 := iblk m c 1 t

/-- Both input windows sit, at point t, on time block t % 8 and station block t / 8 (decided over the 80 points). -/
theorem block_index : ∀ t : Fin cfg0.N,
    win0_0.index t (0 : Fin 3) = t.val % 8 ∧ win0_0.index t (1 : Fin 3) = t.val / 8 ∧ win0_0.index t (2 : Fin 3) = 0
    ∧ win0_1.index t (0 : Fin 3) = t.val % 8 ∧ win0_1.index t (1 : Fin 3) = t.val / 8 ∧ win0_1.index t (2 : Fin 3) = 0 :=
  (by decide +kernel : ∀ t : Fin grid0.N, _)

/-- Entry (r, p, q) of the first input's block at point t is the array's entry (512·(t % 8) + r, 400·(t / 8) + p, q). -/
theorem out_block_at (c : Dev nD) (t : Fin cfg0.N) (r : Fin 512) (p : Fin 400) (q : Fin 4) :
    outBlk m c t (ix3 r p q) = entry (outArr m c) (512 * (t.val % 8) + r.val) (400 * (t.val / 8) + p.val) q.val := by
  have hN : t.val < 80 := lt_of_lt_of_eq t.isLt (show cfg0.N = 80 from N_0)
  obtain ⟨e0, e1, e2, -, -, -⟩ := block_index t
  have hr := r.isLt; have hp := p.isLt; have hq := q.isLt
  unfold entry
  rw [dif_pos ⟨by omega, by omega, by omega⟩]
  unfold outBlk iblk
  rw [View.read_apply]
  show V m c main_arg0 _ = V m c main_arg0 _
  refine congrArg (V m c main_arg0) ?_
  funext a; apply Fin.ext
  match a with
  | ⟨0, _⟩ => show win0_0.index t (0 : Fin 3) * 512 + 1 * r.val = 512 * (t.val % 8) + r.val; rw [e0]; omega
  | ⟨1, _⟩ => show win0_0.index t (1 : Fin 3) * 400 + 1 * p.val = 400 * (t.val / 8) + p.val; rw [e1]; omega
  | ⟨2, _⟩ => show win0_0.index t (2 : Fin 3) * 4 + 1 * q.val = q.val; rw [e2]; omega

/-- The same for the second input (the targets). -/
theorem tgt_block_at (c : Dev nD) (t : Fin cfg0.N) (r : Fin 512) (p : Fin 400) (q : Fin 4) :
    tgtBlk m c t (ix3 r p q) = entry (tgtArr m c) (512 * (t.val % 8) + r.val) (400 * (t.val / 8) + p.val) q.val := by
  have hN : t.val < 80 := lt_of_lt_of_eq t.isLt (show cfg0.N = 80 from N_0)
  obtain ⟨-, -, -, e0, e1, e2⟩ := block_index t
  have hr := r.isLt; have hp := p.isLt; have hq := q.isLt
  unfold entry
  rw [dif_pos ⟨by omega, by omega, by omega⟩]
  unfold tgtBlk iblk
  rw [View.read_apply]
  show V m c main_arg1 _ = V m c main_arg1 _
  refine congrArg (V m c main_arg1) ?_
  funext a; apply Fin.ext
  match a with
  | ⟨0, _⟩ => show win0_1.index t (0 : Fin 3) * 512 + 1 * r.val = 512 * (t.val % 8) + r.val; rw [e0]; omega
  | ⟨1, _⟩ => show win0_1.index t (1 : Fin 3) * 400 + 1 * p.val = 400 * (t.val / 8) + p.val; rw [e1]; omega
  | ⟨2, _⟩ => show win0_1.index t (2 : Fin 3) * 4 + 1 * q.val = q.val; rw [e2]; omega

/-- The count block after point n: one for each time before the end of time block n % 8. -/
def countRun (n : ℕ) : FVec Ideal S400x4 .f32 := fun _ => ∑ _k ∈ Finset.range (512 * (n % 8 + 1)), (1 : EReal)

/-- The squared-error block after point n: the squared errors at those times, at station 400·(n / 8) + p. -/
def sqerrRun (c : Dev nD) (n : ℕ) : FVec Ideal S400x4 .f32 := fun j =>
  ∑ k ∈ Finset.range (512 * (n % 8 + 1)),
    sqErr (entry (outArr m c) k (400 * (n / 8) + (j 0).val) (j 1).val) (entry (tgtArr m c) k (400 * (n / 8) + (j 0).val) (j 1).val)

/-- Counting over the zero block: the first 512 times. -/
theorem count_first_run (x1 : FVec Ideal S512x400x4 .f32) (n : ℕ) (h0 : n % 8 = 0) :
    k0_pay5 (F := Ideal) x1 (k0_pay1 (F := Ideal)) = countRun n := by
  funext j
  obtain ⟨p, q, rfl⟩ : ∃ (p : Fin 400) (q : Fin 4), j = ix2 p q := ⟨j 0, j 1, eq_ix2 j⟩
  refine (count_payload_at x1 _ p q).trans ?_
  rw [count_zero_at, zero_add]
  show _ = ∑ _k ∈ Finset.range (512 * (n % 8 + 1)), (1 : EReal)
  rw [h0]
  exact RunSums.first_run 512 (fun _ => (1 : EReal))

/-- Counting over the point before: the next 512 times. -/
theorem count_next_run (x1 : FVec Ideal S512x400x4 .f32) (n : ℕ) (h0 : ¬n % 8 = 0) :
    k0_pay5 (F := Ideal) x1 (countRun (n - 1)) = countRun n := by
  funext j
  obtain ⟨p, q, rfl⟩ : ∃ (p : Fin 400) (q : Fin 4), j = ix2 p q := ⟨j 0, j 1, eq_ix2 j⟩
  refine (count_payload_at x1 _ p q).trans ?_
  have hb : (n - 1) % 8 + 1 = n % 8 := by omega
  show ∑ _k ∈ Finset.range (512 * ((n - 1) % 8 + 1)), (1 : EReal) + ∑ _r : Fin 512, (1 : EReal)
    = ∑ _k ∈ Finset.range (512 * (n % 8 + 1)), (1 : EReal)
  rw [hb]
  exact RunSums.add_next_run 512 (fun _ => (1 : EReal)) (n % 8)

/-- Squared errors over the zero block: the first 512 times. -/
theorem sqerr_first_run (c : Dev nD) (t : Fin cfg0.N) (h0 : t.val % 8 = 0) :
    k0_pay6 (F := Ideal) (outBlk m c t) (tgtBlk m c t) (k0_pay2 (F := Ideal)) = sqerrRun m c t.val := by
  funext j
  obtain ⟨p, q, rfl⟩ : ∃ (p : Fin 400) (q : Fin 4), j = ix2 p q := ⟨j 0, j 1, eq_ix2 j⟩
  refine (sqerr_payload_at (outBlk m c t) (tgtBlk m c t) _ p q).trans ?_
  rw [sqerr_zero_at, zero_add]
  refine (Finset.sum_congr rfl fun r _ => congrArg₂ sqErr (out_block_at m c t r p q) (tgt_block_at m c t r p q)).trans ?_
  show _ = ∑ k ∈ Finset.range (512 * (t.val % 8 + 1)),
    sqErr (entry (outArr m c) k (400 * (t.val / 8) + p.val) q.val) (entry (tgtArr m c) k (400 * (t.val / 8) + p.val) q.val)
  rw [h0]
  exact RunSums.first_run 512 (fun k => sqErr (entry (outArr m c) k (400 * (t.val / 8) + p.val) q.val) (entry (tgtArr m c) k (400 * (t.val / 8) + p.val) q.val))

/-- Squared errors over the point before: the next 512 times. -/
theorem sqerr_next_run (c : Dev nD) (t : Fin cfg0.N) (h0 : ¬t.val % 8 = 0) :
    k0_pay6 (F := Ideal) (outBlk m c t) (tgtBlk m c t) (sqerrRun m c (t.val - 1)) = sqerrRun m c t.val := by
  funext j
  obtain ⟨p, q, rfl⟩ : ∃ (p : Fin 400) (q : Fin 4), j = ix2 p q := ⟨j 0, j 1, eq_ix2 j⟩
  refine (sqerr_payload_at (outBlk m c t) (tgtBlk m c t) _ p q).trans ?_
  refine (congrArg (_ + ·) (Finset.sum_congr rfl fun r _ => congrArg₂ sqErr (out_block_at m c t r p q) (tgt_block_at m c t r p q))).trans ?_
  have hb : (t.val - 1) % 8 + 1 = t.val % 8 := by omega
  have hd : (t.val - 1) / 8 = t.val / 8 := by omega
  show ∑ k ∈ Finset.range (512 * ((t.val - 1) % 8 + 1)),
        sqErr (entry (outArr m c) k (400 * ((t.val - 1) / 8) + p.val) q.val) (entry (tgtArr m c) k (400 * ((t.val - 1) / 8) + p.val) q.val)
      + ∑ r : Fin 512, sqErr (entry (outArr m c) (512 * (t.val % 8) + r.val) (400 * (t.val / 8) + p.val) q.val)
          (entry (tgtArr m c) (512 * (t.val % 8) + r.val) (400 * (t.val / 8) + p.val) q.val)
    = ∑ k ∈ Finset.range (512 * (t.val % 8 + 1)),
        sqErr (entry (outArr m c) k (400 * (t.val / 8) + p.val) q.val) (entry (tgtArr m c) k (400 * (t.val / 8) + p.val) q.val)
  rw [hb, hd]
  exact RunSums.add_next_run 512 (fun k => sqErr (entry (outArr m c) k (400 * (t.val / 8) + p.val) q.val) (entry (tgtArr m c) k (400 * (t.val / 8) + p.val) q.val)) (t.val % 8)

/-- A point on a first time block leaves the first 512 terms of both sums. -/
theorem step_first (c : Dev nD) (t : Fin cfg0.N) (h0 : t.val % 8 = 0) :
    outsAt0 m c t.val t.isLt = (countRun t.val, sqerrRun m c t.val) := by
  rw [outsAt0_A m c t h0,
    count_first (F := Ideal) c (grid0.coords t) (ms0_0 t) (hs0_0 t) (ms0_1 t) (hs0_1 t) (ms0_2 t) (hs0_2 t) (ms0_3 t) (hs0_3 t) ((hcond0_0 t).mpr h0) (iblk m c 0 t) (iblk m c 1 t),
    sqerr_first (F := Ideal) c (grid0.coords t) (ms0_0 t) (hs0_0 t) (ms0_1 t) (hs0_1 t) (ms0_2 t) (hs0_2 t) (ms0_3 t) (hs0_3 t) ((hcond0_0 t).mpr h0) (iblk m c 0 t) (iblk m c 1 t)]
  exact congrArg₂ Prod.mk (count_first_run (tgtBlk m c t) t.val h0) (sqerr_first_run m c t h0)

/-- A point on a later time block adds the next 512 terms to what the point before left. -/
theorem step_later (c : Dev nD) (t : Fin cfg0.N) (h0 : ¬t.val % 8 = 0)
    (ih : outsAt0 m c (t.val - 1) (Nat.lt_of_le_of_lt (Nat.sub_le _ _) t.isLt) = (countRun (t.val - 1), sqerrRun m c (t.val - 1))) :
    outsAt0 m c t.val t.isLt = (countRun t.val, sqerrRun m c t.val) := by
  rw [outsAt0_B m c t h0, ih]
  dsimp only
  rw [count_later (F := Ideal) c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t)
      (countRun (t.val - 1)) (sqerrRun m c (t.val - 1)),
    sqerr_later (F := Ideal) c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t)
      (countRun (t.val - 1)) (sqerrRun m c (t.val - 1))]
  exact congrArg₂ Prod.mk (count_next_run (tgtBlk m c t) t.val h0) (sqerr_next_run m c t h0)

/-- After every point the two blocks hold the running sums. -/
theorem outsAt_eq (c : Dev nD) : ∀ (n : ℕ) (h : n < cfg0.N), outsAt0 m c n h = (countRun n, sqerrRun m c n)
  | 0, h => step_first m c ⟨0, h⟩ rfl
  | n + 1, h => by
    by_cases h0 : (n + 1) % 8 = 0
    · exact step_first m c ⟨n + 1, h⟩ h0
    · exact step_later m c ⟨n + 1, h⟩ h0 (outsAt_eq c n (Nat.lt_of_succ_lt h))

end Cert.KernelIdeal.RunningSums

end
-- ==== Proof.ColumnSums.lean ====
/-
  The two column sums as whole [4000, 4] arrays: what both programs hand to the shared final part.

  At station s and variable y the count is the number of times, 4096, each counting 1 (over the extended reals every target
  is valid), and the squared-error sum is the sum over the 4096 times k of the squared error of the observation at (k, s, y)
  against its target.
-/
import proofs.«128352_j7301444403961_1_alg».proof.Proof.ElementTerms
import Idealize.ShloMosaic.Lib.ValueIdx

noncomputable section

open Idealize.ShloMosaic Idealize.ShloMosaic.ValueIdx
open scoped BigOperators

namespace Cert.ColumnSums

open Cert.ElementTerms

abbrev S4096x4000x4 : Shape := ⟨3, ![4096, 4000, 4]⟩
abbrev S4000x4 : Shape := ⟨2, ![4000, 4]⟩

/-- The count of valid targets per station and variable. -/
def countCol : FVec Ideal S4000x4 .f32 := fun _ => ∑ _k : Fin 4096, (1 : EReal)

/-- The sum of squared errors per station and variable. -/
def sqerrCol (x0 x1 : FVec Ideal S4096x4000x4 .f32) : FVec Ideal S4000x4 .f32 := fun j =>
  ∑ k : Fin 4096, sqErr (x0 (ix3 k (j 0) (j 1))) (x1 (ix3 k (j 0) (j 1)))

theorem sqerrCol_at (x0 x1 : FVec Ideal S4096x4000x4 .f32) (s : Fin 4000) (y : Fin 4) :
    sqerrCol x0 x1 (ix2 s y) = ∑ k : Fin 4096, sqErr (x0 (ix3 k s y)) (x1 (ix3 k s y)) := rfl

end Cert.ColumnSums

end
-- ==== Proof.KernelColumns.lean ====
/-
  The kernel's two result arrays after the run are the two column sums.

  An output block is written back only after the last time block of its station block (the points n with n % 8 = 7). By
  then the running sums are over all 4096 times, so what is written back at station block a is rows 400·a … 400·a + 399 of the
  column sums; the ten written-back blocks tile the [4000, 4] arrays (station s lies in block s / 400, written at point
  8·(s / 400) + 7), so each array ends holding its column sum everywhere.
-/
import proofs.«128352_j7301444403961_1_alg».proof.Proof.Gen.KernelIdeal.Frame
import proofs.«128352_j7301444403961_1_alg».proof.Proof.RunningSums
import proofs.«128352_j7301444403961_1_alg».proof.Proof.ColumnSums
import Idealize.ShloMosaic.Lib.Pipeline.Value

noncomputable section

open Idealize.ShloMosaic Idealize.ShloMosaic.TcCoe Idealize.SL.Sem Idealize.ShloMosaic.ValueIdx
open Idealize.ShloMosaic.Pipeline (Dat)
open scoped BigOperators

namespace Cert.KernelIdeal.Columns

open Cert.KernelIdeal Cert.KernelIdeal.Gen Cert.ElementTerms Cert.ColumnSums Cert.KernelIdeal.RunningSums

variable (m : (ℓ : Loc nD τ sig) → Buf (Elt Ideal) ℓ)

/-- Inside the array, an entry by numeric coordinates is the entry. -/
theorem entry_eq (x : FVec Ideal Cert.KernelIdeal.S4096x4000x4 .f32) (k : Fin 4096) (s : Fin 4000) (y : Fin 4) :
    entry x k.val s.val y.val = x (ix3 k s y) := by
  unfold entry
  rw [dif_pos ⟨k.isLt, s.isLt, y.isLt⟩]

/-- Both output windows sit, at point t, on station block t / 8 (decided over the 80 points). -/
theorem out_index : ∀ t : Fin cfg0.N, win0_2.index t (0 : Fin 2) = t.val / 8 ∧ win0_2.index t (1 : Fin 2) = 0
    ∧ win0_3.index t (0 : Fin 2) = t.val / 8 ∧ win0_3.index t (1 : Fin 2) = 0 :=
  (by decide +kernel : ∀ t : Fin grid0.N, _)

/-- After a last time block the count is over all 4096 times. -/
theorem count_last (n : ℕ) (h7 : n % 8 = 7) :
    (∑ _k ∈ Finset.range (512 * (n % 8 + 1)), (1 : EReal)) = ∑ _k : Fin 4096, (1 : EReal) := by
  rw [h7]
  exact RunSums.whole_column 4096 (fun _ => (1 : EReal))

/-- After a last time block the squared-error sum at (p, q) is the column sum at station 400·(t / 8) + p. -/
theorem sqerr_last (c : Dev nD) (t : Fin cfg0.N) (h7 : t.val % 8 = 7) (p q : ℕ) (s : Fin 4000) (y : Fin 4)
    (hs : s.val = 400 * (t.val / 8) + p) (hy : y.val = q) :
    (∑ k ∈ Finset.range (512 * (t.val % 8 + 1)),
      sqErr (entry (outArr m c) k (400 * (t.val / 8) + p) q) (entry (tgtArr m c) k (400 * (t.val / 8) + p) q))
    = sqerrCol (outArr m c) (tgtArr m c) (ix2 s y) := by
  rw [h7, ← hs, ← hy, sqerrCol_at]
  refine (RunSums.whole_column 4096 _).trans ?_
  exact Finset.sum_congr rfl fun k _ => congrArg₂ sqErr (entry_eq _ k s y) (entry_eq _ k s y)

/-- What a write-back point writes of the counts is its block of the count column. -/
theorem count_flushed (c : Dev nD) (t : Fin cfg0.N) (hf : (cfg0.win 2).flush t = true) :
    (dats m 0 c).flushed 2 t = ((cfg0.win 2).blk t).view.read (Elt Ideal) (countCol : FVec Ideal Cert.ColumnSums.S4000x4 .f32) := by
  have h7 : t.val % 8 = 7 := (flush0_2 t).mp hf
  show (cfg0.win 2).cut (grid0.coords t) ((dats m 0 c).after 2 t) = _
  rw [after0_2, outsAt_eq m c t.val t.isLt]
  dsimp only
  funext j
  rw [View.read_apply]
  show (∑ _k ∈ Finset.range (512 * (t.val % 8 + 1)), (1 : EReal)) = ∑ _k : Fin 4096, (1 : EReal)
  exact count_last t.val h7

/-- What a write-back point writes of the squared-error sums is its block of the squared-error column. -/
theorem sqerr_flushed (c : Dev nD) (t : Fin cfg0.N) (hf : (cfg0.win 3).flush t = true) :
    (dats m 0 c).flushed 3 t
      = ((cfg0.win 3).blk t).view.read (Elt Ideal) (sqerrCol (outArr m c) (tgtArr m c) : FVec Ideal Cert.ColumnSums.S4000x4 .f32) := by
  have h7 : t.val % 8 = 7 := (flush0_3 t).mp hf
  have hN : t.val < 80 := lt_of_lt_of_eq t.isLt (show cfg0.N = 80 from N_0)
  obtain ⟨-, -, e0, e1⟩ := out_index t
  show (cfg0.win 3).cut (grid0.coords t) ((dats m 0 c).after 3 t) = _
  rw [after0_3, outsAt_eq m c t.val t.isLt]
  dsimp only
  funext j
  have hp : (j 0).val < 400 := (j 0).isLt
  have hq : (j 1).val < 4 := (j 1).isLt
  rw [View.read_apply]
  have he : ((cfg0.win 3).blk t).view.emb j
      = (ix2 (⟨400 * (t.val / 8) + (j 0).val, by omega⟩ : Fin 4000) (⟨(j 1).val, hq⟩ : Fin 4) : Cert.ColumnSums.S4000x4.Idx) := by
    funext a; apply Fin.ext
    match a with
    | ⟨0, _⟩ => show win0_3.index t (0 : Fin 2) * 400 + 1 * (j 0).val = 400 * (t.val / 8) + (j 0).val; rw [e0]; omega
    | ⟨1, _⟩ => show win0_3.index t (1 : Fin 2) * 4 + 1 * (j 1).val = (j 1).val; rw [e1]; omega
  rw [he]
  exact sqerr_last m c t h7 (j 0).val (j 1).val _ _ rfl rfl

/-- An index of a [4000, 4] result array is in point t's block iff each coordinate is in the block's range. -/
theorem mem_count_block (t : Fin cfg0.N) (i : Cert.KernelIdeal.S4000x4.Idx) :
    i ∈ ((cfg0.win 2).blk t).view.set
      ↔ ∀ a : Fin 2, win0_2.index t a * S400x4.size a ≤ (i a).val ∧ (i a).val < win0_2.index t a * S400x4.size a + S400x4.size a := by
  show i ∈ ((View.whole main_v0_0).slice (win0_2.rect t)).set ↔ _
  rw [View.set_slice_whole, Rect.mem_set_unit]
  exact Iff.rfl

theorem mem_sqerr_block (t : Fin cfg0.N) (i : Cert.KernelIdeal.S4000x4.Idx) :
    i ∈ ((cfg0.win 3).blk t).view.set
      ↔ ∀ a : Fin 2, win0_3.index t a * S400x4.size a ≤ (i a).val ∧ (i a).val < win0_3.index t a * S400x4.size a + S400x4.size a := by
  show i ∈ ((View.whole main_v0_1).slice (win0_3.rect t)).set ↔ _
  rw [View.set_slice_whole, Rect.mem_set_unit]
  exact Iff.rfl

/-- The point that writes back station s's block: the last time block of station block s / 400. -/
def writer (i : Cert.KernelIdeal.S4000x4.Idx) : Fin cfg0.N :=
  ⟨8 * ((i 0).val / 400) + 7, by
    have h : (i 0).val < 4000 := (i 0).isLt
    rw [show cfg0.N = 80 from N_0]; omega⟩

theorem writer_val (i : Cert.KernelIdeal.S4000x4.Idx) : (writer i).val = 8 * ((i 0).val / 400) + 7 := rfl

/-- Every entry of the count array is in a written-back block. -/
theorem count_covered (i : Cert.KernelIdeal.S4000x4.Idx) :
    ∃ t : Fin cfg0.N, (cfg0.win 2).flush t = true ∧ i ∈ ((cfg0.win 2).blk t).view.set := by
  have hi0 : (i 0).val < 4000 := (i 0).isLt
  have hi1 : (i 1).val < 4 := (i 1).isLt
  have hw := writer_val i
  obtain ⟨e0, e1, -, -⟩ := out_index (writer i)
  refine ⟨writer i, (flush0_2 (writer i)).mpr (by omega), ?_⟩
  rw [mem_count_block]
  intro a
  match a with
  | ⟨0, _⟩ => show win0_2.index (writer i) (0 : Fin 2) * 400 ≤ (i 0).val ∧ (i 0).val < win0_2.index (writer i) (0 : Fin 2) * 400 + 400
              rw [e0]; omega
  | ⟨1, _⟩ => show win0_2.index (writer i) (1 : Fin 2) * 4 ≤ (i 1).val ∧ (i 1).val < win0_2.index (writer i) (1 : Fin 2) * 4 + 4
              rw [e1]; omega

/-- Every entry of the squared-error array is in a written-back block. -/
theorem sqerr_covered (i : Cert.KernelIdeal.S4000x4.Idx) :
    ∃ t : Fin cfg0.N, (cfg0.win 3).flush t = true ∧ i ∈ ((cfg0.win 3).blk t).view.set := by
  have hi0 : (i 0).val < 4000 := (i 0).isLt
  have hi1 : (i 1).val < 4 := (i 1).isLt
  have hw := writer_val i
  obtain ⟨-, -, e0, e1⟩ := out_index (writer i)
  refine ⟨writer i, (flush0_3 (writer i)).mpr (by omega), ?_⟩
  rw [mem_sqerr_block]
  intro a
  match a with
  | ⟨0, _⟩ => show win0_3.index (writer i) (0 : Fin 2) * 400 ≤ (i 0).val ∧ (i 0).val < win0_3.index (writer i) (0 : Fin 2) * 400 + 400
              rw [e0]; omega
  | ⟨1, _⟩ => show win0_3.index (writer i) (1 : Fin 2) * 4 ≤ (i 1).val ∧ (i 1).val < win0_3.index (writer i) (1 : Fin 2) * 4 + 4
              rw [e1]; omega

/-- The count array after the run is the count column. -/
theorem count_final (c : Dev nD) : (dats m 0 c).arrAt 2 cfg0.N = (countCol : FVec Ideal Cert.ColumnSums.S4000x4 .f32) :=
  (dats m 0 c).arrAt_eq_of_cover 2 countCol (count_flushed m c) count_covered

/-- The squared-error array after the run is the squared-error column of the two arguments. -/
theorem sqerr_final (c : Dev nD) :
    (dats m 0 c).arrAt 3 cfg0.N = (sqerrCol (outArr m c) (tgtArr m c) : FVec Ideal Cert.ColumnSums.S4000x4 .f32) :=
  (dats m 0 c).arrAt_eq_of_cover 3 (sqerrCol (outArr m c) (tgtArr m c)) (sqerr_flushed m c) sqerr_covered

end Cert.KernelIdeal.Columns

end
-- ==== Proof.Finalize.lean ====
/-
  From the two [4000, 4] column sums to the scalar loss: the part both programs share.

  Given the per-station counts and squared-error sums, both programs compute, in the same order and with the same literals:
  which stations have any observation (count > 0); the mean squared error `ssum / max(count, 1)`, kept only at those stations
  and 0 elsewhere; its square root; per variable, the sum of those roots over the stations divided by the number of stations
  with an observation; and the mean of the four per-variable values (their sum from 0, divided by 4). It is stated once, as a
  function of the two column sums, so that the two programs' results are compared by comparing their column sums only.
-/
import Idealize.ShloMosaic.PureOps.Ideal.Laws

noncomputable section

open Idealize.ShloMosaic

namespace Cert.Finalize

abbrev S_ : Shape := ⟨0, ![]⟩
abbrev S4 : Shape := ⟨1, ![4]⟩
abbrev S4000x4 : Shape := ⟨2, ![4000, 4]⟩

variable {F : FTy → Type} [FloatOps F]

/-- The loss from the column sums (the four facts are the shape relations the operations ask for). -/
def finalize (hb : S_.BroadcastsInDim S4000x4 (![] : Fin 0 → Fin S4000x4.rank)) (hr : S4000x4.ReducesTo [0] S4)
    (hs : 0 < S_.numel) (hr' : S4.ReducesTo [0] S_) (cnt ssum : FVec F S4000x4 .f32) : FVec F S_ .f32 :=
  Host.divf (F := F)
    (Host.reduceAdd (F := F)
      (Host.divf (F := F)
        (Host.reduceAdd (F := F)
          (Host.sqrt (F := F)
            (select (cmpf (F := F) .ogt cnt (broadcastInDim S4000x4 ![] hb (constant (F := F) S_ .f32 0x00000000#32)))
              (Host.divf (F := F) ssum (maximumf cnt (broadcastInDim S4000x4 ![] hb (constant (F := F) S_ .f32 0x3F800000#32))))
              (broadcastInDim S4000x4 ![] hb (id (constant (F := F) S_ .f32 0x00000000#32)))))
          (constant (F := F) S_ .f32 0x00000000#32) hr hs)
        (Host.reduceAdd (F := F)
          (uitofp (F := F) .f32 (cmpf (F := F) .ogt cnt (broadcastInDim S4000x4 ![] hb (constant (F := F) S_ .f32 0x00000000#32))))
          (constant (F := F) S_ .f32 0x00000000#32) hr hs))
      (constant (F := F) S_ .f32 0x00000000#32) hr' hs)
    (constant (F := F) S_ .f32 0x40800000#32)

end Cert.Finalize

end
-- ==== Proof.KernelResult.lean ====
/-
  The kernel program's result: the shared final part applied to the two column sums of its arguments.

  After the pallas_call the program's remaining host operations read the two result arrays and nothing else of the region;
  unfolding them one after the other gives exactly the shared final part of those two arrays (the outlined `where` passes its
  operands through unchanged). The arrays are the column sums of the argument arrays, so the result is the shared final part
  of the column sums; the argument arrays are as they were.
-/
import proofs.«128352_j7301444403961_1_alg».proof.Proof.Gen.KernelIdeal.Frame
import proofs.«128352_j7301444403961_1_alg».proof.Proof.KernelColumns
import proofs.«128352_j7301444403961_1_alg».proof.Proof.ColumnSums
import proofs.«128352_j7301444403961_1_alg».proof.Proof.Finalize
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.ColumnSums Cert.KernelIdeal.RunningSums Cert.KernelIdeal.Columns

/-- The host operations after the region, read at the program's result: the shared final part of the two result arrays
    (at any float type). -/
theorem tail_eq {F : FTy → Type} [FloatOps F] (m : (ℓ : Loc nD τ sig) → Buf (Elt F) ℓ) (c : Dev nD) :
    Pipeline.afterTail₀ cfgs (dats m) 0 (V0 m) [hostOps1, hostOps1_1, hostOps1_2] c main_v13
      = Cert.Finalize.finalize (F := F) Cert.KernelIdeal.Gen.bcast_S_S4000x4 Cert.KernelIdeal.Gen.reducesTo_S4000x4_S4_d0
          Cert.KernelIdeal.Gen.h_S_ Cert.KernelIdeal.Gen.reducesTo_S4_S_d0 ((dats m 0 c).arrAt 2 cfg0.N) ((dats m 0 c).arrAt 3 cfg0.N) := by
  have e2 : Pipeline.withArrays (cfgs 0).spec c (V0 m c) (fun w => (dats m 0 c).arrAt w (cfgs 0).N) (Proc.devRef .tc main_v0_0)
      = (dats m 0 c).arrAt 2 cfg0.N := Pipeline.withArrays_arr spec0 launch0.win.arr_inj c _ _ 2
  have e3 : Pipeline.withArrays (cfgs 0).spec c (V0 m c) (fun w => (dats m 0 c).arrAt w (cfgs 0).N) (Proc.devRef .tc main_v0_1)
      = (dats m 0 c).arrAt 3 cfg0.N := Pipeline.withArrays_arr spec0 launch0.win.arr_inj c _ _ 3
  unfold Pipeline.afterTail₀
  simp only [hostOps1, hostOps1_1, hostOps1_2, List.flatten_cons, List.flatten_nil, List.append_nil, List.cons_append, List.nil_append]
  after_results_simp
  rw [e2, e3]
  simp only [StableHlo.TRef.ofBuf, StableHlo.TRef.toBuf, cast_eq]
  rfl

theorem result_in_rest : main_v13 ∈ Pipeline.restRefs sig (cfgs 0).spec := by decide

variable (m : (ℓ : Loc nD τ sig) → Buf (Elt Ideal) ℓ) (ρ : Dev nD → PrngReg)

/-- The run, read: the result at the shared final part of the arguments' column sums, the arguments unchanged. -/
theorem run : θ_run defs (onTc (τ := τ) (main (F := Ideal))) ⟨m, fun _ => 0, ρ⟩ fun r => ∀ c : Dev nD,
      r.2.mem ((c.tc : Thread nD τ).loc main_v13)
        = Cert.Finalize.finalize (F := Ideal) Cert.KernelIdeal.Gen.bcast_S_S4000x4 Cert.KernelIdeal.Gen.reducesTo_S4000x4_S4_d0
            Cert.KernelIdeal.Gen.h_S_ Cert.KernelIdeal.Gen.reducesTo_S4_S_d0 countCol
            (sqerrCol (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v13 result_in_rest).trans ((tail_eq m c).trans (by rw [count_final m c, sqerr_final m c]; rfl)),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Result

end
-- ==== Proof.ReferenceColumns.lean ====
/-
  The reference's two column sums, entry by entry, over the extended reals.

  The reference forms the validity weights and the squared errors of the whole [4096, 4000, 4] arrays and sums each over
  the leading axis from a zero initial value. At station s and variable y the count is therefore 0 + the sum over the 4096
  times of the weight 1, and the squared-error sum is 0 + the sum over the times of the squared error at (time, s, y).
-/
import proofs.«128352_j7301444403961_1_alg».proof.Proof.RefRead
import proofs.«128352_j7301444403961_1_alg».proof.Proof.ElementTerms
import Idealize.ShloMosaic.Lib.ValueIdx
import Idealize.ShloMosaic.PureOps.Ideal.Laws

noncomputable section

open Idealize.ShloMosaic Idealize.ShloMosaic.ValueIdx
open scoped BigOperators

namespace Cert.ReferenceIdeal.Columns

open Cert.ReferenceIdeal Cert.ReferenceIdeal.ReadP Cert.ElementTerms

/-- The entry the leading-axis sum visits at time k for the result entry (s, y) is (k, s, y). -/
theorem count_visits (s : Fin 4000) (y : Fin 4) (k : Fin 4096) : idx_main_v7 (ix2 s y) k = ix3 k s y := by
  funext a; apply Fin.ext
  match a with
  | ⟨0, _⟩ => rfl
  | ⟨1, _⟩ => rfl
  | ⟨2, _⟩ => rfl

theorem sqerr_visits (s : Fin 4000) (y : Fin 4) (k : Fin 4096) : idx_main_v8 (ix2 s y) k = ix3 k s y := by
  funext a; apply Fin.ext
  match a with
  | ⟨0, _⟩ => rfl
  | ⟨1, _⟩ => rfl
  | ⟨2, _⟩ => rfl

/-- The reference's count at (s, y): one for each of the 4096 times. -/
theorem count_at (x1 : (⟨S4096x4000x4, .f32⟩ : BufTy).Contents (Elt Ideal)) (s : Fin 4000) (y : Fin 4) :
    val_main_v7 (F := Ideal) x1 (ix2 s y) = ∑ k : Fin 4096, (1 : EReal) := by
  refine (val_main_v7_apply x1 (ix2 s y)).trans ?_
  refine (congrArg₂ (· + ·) (Ideal.ofBits_zero_f32) (Finset.sum_congr rfl fun k _ => ?_)).trans (zero_add _)
  show FloatOps.uitofp (F := Ideal) .f32 (~~~(FloatOps.cmpf (F := Ideal) .une (x1 (idx_main_v7 (ix2 s y) k)) (x1 (idx_main_v7 (ix2 s y) k)))) = 1
  rw [self_ne_bit]
  exact host_weight_of_set_bit

/-- The reference's squared-error sum at (s, y): the squared errors at the 4096 times. -/
theorem sqerr_at (x0 x1 : (⟨S4096x4000x4, .f32⟩ : BufTy).Contents (Elt Ideal)) (s : Fin 4000) (y : Fin 4) :
    val_main_v8 (F := Ideal) x0 x1 (ix2 s y) = ∑ k : Fin 4096, sqErr (x0 (ix3 k s y)) (x1 (ix3 k s y)) := by
  refine (val_main_v8_apply x0 x1 (ix2 s y)).trans ?_
  refine (congrArg₂ (· + ·) (Ideal.ofBits_zero_f32) (Finset.sum_congr rfl fun k _ => ?_)).trans (zero_add _)
  rw [← sqerr_visits s y k]
  exact host_sqErr (x0 (idx_main_v8 (ix2 s y) k)) (x1 (idx_main_v8 (ix2 s y) k)) _

end Cert.ReferenceIdeal.Columns

end
-- ==== Proof.ReferenceResult.lean ====
/-
  The reference's result is the shared final part applied to the two column sums.

  Its composed term is, read from the outside in, exactly the shared final part of its own two leading-axis sums (by
  unfolding the stages), and those sums are the column sums entry by entry.
-/
import proofs.«128352_j7301444403961_1_alg».proof.Proof.RefRead
import proofs.«128352_j7301444403961_1_alg».proof.Proof.ReferenceColumns
import proofs.«128352_j7301444403961_1_alg».proof.Proof.ColumnSums
import proofs.«128352_j7301444403961_1_alg».proof.Proof.Finalize
import Idealize.ShloMosaic.Lib.ValueIdx

noncomputable section

open Idealize.ShloMosaic Idealize.ShloMosaic.ValueIdx
open scoped BigOperators

namespace Cert.ReferenceIdeal.Result

open Cert.ReferenceIdeal Cert.ReferenceIdeal.ReadP Cert.ColumnSums Cert.ReferenceIdeal.Columns

/-- The reference's last stage is the shared final part of its two leading-axis sums, at any float type. -/
theorem last_stage_eq {F : FTy → Type} [FloatOps F] (x0 x1 : (⟨Cert.ReferenceIdeal.S4096x4000x4, .f32⟩ : BufTy).Contents (Elt F)) :
    val_main_v21 (F := F) x0 x1
      = Cert.Finalize.finalize (F := F) Cert.ReferenceIdeal.Gen.bcast_S_S4000x4 Cert.ReferenceIdeal.Gen.reducesTo_S4000x4_S4_d0
          Cert.ReferenceIdeal.Gen.h_S_ Cert.ReferenceIdeal.Gen.reducesTo_S4_S_d0 (val_main_v7 (F := F) x1) (val_main_v8 (F := F) x0 x1) := rfl

/-- Its count is the count column. -/
theorem count_col (x1 : (⟨Cert.ReferenceIdeal.S4096x4000x4, .f32⟩ : BufTy).Contents (Elt Ideal)) :
    val_main_v7 (F := Ideal) x1 = countCol := by
  funext j
  obtain ⟨s, y, rfl⟩ : ∃ (s : Fin 4000) (y : Fin 4), j = ix2 s y := ⟨j 0, j 1, eq_ix2 j⟩
  exact count_at x1 s y

/-- Its squared-error sum is the squared-error column of its two arguments. -/
theorem sqerr_col (x0 x1 : (⟨Cert.ReferenceIdeal.S4096x4000x4, .f32⟩ : BufTy).Contents (Elt Ideal)) :
    val_main_v8 (F := Ideal) x0 x1 = sqerrCol x0 x1 := by
  funext j
  obtain ⟨s, y, rfl⟩ : ∃ (s : Fin 4000) (y : Fin 4), j = ix2 s y := ⟨j 0, j 1, eq_ix2 j⟩
  exact sqerr_at x0 x1 s y

/-- The reference's result, over the extended reals. -/
theorem result_eq (x0 x1 : (⟨Cert.ReferenceIdeal.S4096x4000x4, .f32⟩ : BufTy).Contents (Elt Ideal)) :
    val_main_v21 (F := Ideal) x0 x1
      = Cert.Finalize.finalize (F := Ideal) Cert.ReferenceIdeal.Gen.bcast_S_S4000x4 Cert.ReferenceIdeal.Gen.reducesTo_S4000x4_S4_d0
          Cert.ReferenceIdeal.Gen.h_S_ Cert.ReferenceIdeal.Gen.reducesTo_S4_S_d0 countCol (sqerrCol x0 x1) := by
  rw [last_stage_eq, count_col, sqerr_col]

end Cert.ReferenceIdeal.Result

end
-- ==== Proof.lean ====
/-
  A masked root-mean-square-error loss over observations indexed by (time, station, variable), [4096, 4000, 4]: the Pallas
  kernel against its jnp reference, over the extended reals.

  Both programs first reduce over time. For every station and variable they form the count of valid targets and the sum of
  the squared errors of the valid observations; a target is valid when it is a number, which the kernel tests by `t == t` and
  the reference by `not (t != t)`. Over the extended reals every target equals itself, so both masks are all ones, the count is
  the number of times and the squared error of an observation is `(o − t)·(o − t)`. The reference sums each column of 4096
  terms at once. The kernel walks a 10 × 8 grid of (station block, time block): on the first time block of a station block it
  zeroes its two [400, 4] output blocks, on every time block it adds the column sums of the 512 rows it holds, and it writes
  the blocks back after the eighth. Its running totals are initial segments of the columns (Proof/RunningSums.lean, by
  induction on the grid point, from what the body stores — Proof/BodyValues.lean, Proof/PayloadValues.lean — and the
  regrouping of a sum into consecutive runs, Proof/LibRunSums.lean), so the blocks written back tile the two result arrays
  with the whole columns' sums (Proof/KernelColumns.lean). That regrouping uses only that addition of extended reals is
  commutative and associative: no finiteness is needed, and the precondition is never opened.

  Both programs then apply the same operations, in the same order and with the same literals, to those two [4000, 4] arrays:
  the mean squared error where the count is positive and 0 elsewhere, its square root, the per-variable mean over the
  stations that have an observation, and the mean over the four variables. That shared part is stated once
  (Proof/Finalize.lean); the kernel program's result is it applied to its two result arrays (Proof/KernelResult.lean), the
  reference's is it applied to its two leading-axis sums (Proof/ReferenceResult.lean, Proof/ReferenceColumns.lean), and the
  arrays agree entry by entry.

  The frames of the two kernel programs are the generated ones; the reference's is its run with the result dropped. The
  ideal pass rewrote nothing, so the kernel's idealization is the kernel's own text and `preserves` is trivial.
-/
import proofs.«128352_j7301444403961_1_alg».proof.Defs
import proofs.«128352_j7301444403961_1_alg».proof.Proof.Gen.Kernel
import proofs.«128352_j7301444403961_1_alg».proof.Proof.Gen.Kernel.Skeleton
import proofs.«128352_j7301444403961_1_alg».proof.Proof.Gen.Kernel.Launch
import proofs.«128352_j7301444403961_1_alg».proof.Proof.Gen.Kernel.Points
import proofs.«128352_j7301444403961_1_alg».proof.Proof.Gen.Kernel.Frame
import proofs.«128352_j7301444403961_1_alg».proof.Proof.Gen.KernelIdeal
import proofs.«128352_j7301444403961_1_alg».proof.Proof.Gen.KernelIdeal.Skeleton
import proofs.«128352_j7301444403961_1_alg».proof.Proof.Gen.KernelIdeal.Launch
import proofs.«128352_j7301444403961_1_alg».proof.Proof.Gen.KernelIdeal.Points
import proofs.«128352_j7301444403961_1_alg».proof.Proof.Gen.KernelIdeal.Frame
import proofs.«128352_j7301444403961_1_alg».proof.Proof.Gen.ReferenceIdeal
import proofs.«128352_j7301444403961_1_alg».proof.Proof.Gen.Pre_finite_inputs
import proofs.«128352_j7301444403961_1_alg».proof.Proof.RefRun
import proofs.«128352_j7301444403961_1_alg».proof.Proof.RefRead
import proofs.«128352_j7301444403961_1_alg».proof.Proof.KernelResult
import proofs.«128352_j7301444403961_1_alg».proof.Proof.ReferenceResult
import Idealize.ShloMosaic.Adequacy
import Idealize.ShloMosaic.Init

noncomputable section

namespace Cert.Proof

open Idealize.ShloMosaic Idealize.SL.Sem

/-- The word-level kernel program runs and leaves its arguments as they were: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Over the extended reals, from memories that agree on the two arguments, both programs end at the shared final part of
    the arguments' two column sums. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v21_eq, Cert.ReferenceIdeal.Result.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
